-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S4x1600000 : Shape := ⟨2, ![4, 1600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel

variable [Facts]

def fn {F : FTy → Type} [FloatOps F] (main_arg0 : FVec F S200000x128 .f32) (main_arg1 : IVec S4x1600000 32) (main_arg2 : IVec S4x1600000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  main_v3
-- ==== Kernel.lean ====
abbrev S200000x128 : Shape := ⟨2, ![200000, 128]⟩
abbrev S4x1600000 : Shape := ⟨2, ![4, 1600000]⟩
abbrev S6400000 : Shape := ⟨1, ![6400000]⟩
abbrev S12800000 : Shape := ⟨1, ![12800000]⟩
abbrev S100000x128 : Shape := ⟨2, ![100000, 128]⟩
abbrev S2x784x256 : Shape := ⟨3, ![2, 784, 256]⟩
abbrev S200x128 : Shape := ⟨2, ![200, 128]⟩
abbrev S1x784x256 : Shape := ⟨3, ![1, 784, 256]⟩
abbrev S784x256 : Shape := ⟨2, ![784, 256]⟩
abbrev S1x1x784 : Shape := ⟨3, ![1, 1, 784]⟩
abbrev S1x1x256 : Shape := ⟨3, ![1, 1, 256]⟩
abbrev S8x128 : Shape := ⟨2, ![8, 128]⟩
abbrev S8x128x1 : Shape := ⟨3, ![8, 128, 1]⟩
abbrev S8x128x784 : Shape := ⟨3, ![8, 128, 784]⟩
abbrev S8x128x256 : Shape := ⟨3, ![8, 128, 256]⟩
abbrev S8x784x256 : Shape := ⟨3, ![8, 784, 256]⟩
abbrev S_ : Shape := ⟨0, ![]⟩
abbrev S200704 : Shape := ⟨1, ![200704]⟩
abbrev S200000 : Shape := ⟨1, ![200000]⟩

abbrev nBuf : Space → Nat
  | .hbm => 27
  | .vmem => 4
  | .smem => 0
  | _ => 0

abbrev bufTy : (tb : Table) → Fin (tcTables nBuf tb) → BufTy
  | .hbm, ⟨0, _⟩ => ⟨S200000x128, .f32⟩
  | .hbm, ⟨1, _⟩ => ⟨S4x1600000, .i32⟩
  | .hbm, ⟨2, _⟩ => ⟨S4x1600000, .i32⟩
  | .hbm, ⟨3, _⟩ => ⟨S6400000, .i32⟩
  | .hbm, ⟨4, _⟩ => ⟨S6400000, .i32⟩
  | .hbm, ⟨5, _⟩ => ⟨S12800000, .i32⟩
  | .hbm, ⟨6, _⟩ => ⟨S100000x128, .i32⟩
  | .hbm, ⟨7, _⟩ => ⟨S2x784x256, .f32⟩
  | .hbm, ⟨8, _⟩ => ⟨S1x784x256, .f32⟩
  | .hbm, ⟨9, _⟩ => ⟨S784x256, .f32⟩
  | .hbm, ⟨10, _⟩ => ⟨S1x784x256, .f32⟩
  | .hbm, ⟨11, _⟩ => ⟨S784x256, .f32⟩
  | .hbm, ⟨12, _⟩ => ⟨S784x256, .f32⟩
  | .hbm, ⟨13, _⟩ => ⟨S_, .f32⟩
  | .hbm, ⟨14, _⟩ => ⟨S784x256, .f32⟩
  | .hbm, ⟨15, _⟩ => ⟨S784x256, .f32⟩
  | .hbm, ⟨16, _⟩ => ⟨S_, .f32⟩
  | .hbm, ⟨17, _⟩ => ⟨S784x256, .f32⟩
  | .hbm, ⟨18, _⟩ => ⟨S784x256, .i1⟩
  | .hbm, ⟨19, _⟩ => ⟨S_, .f32⟩
  | .hbm, ⟨20, _⟩ => ⟨S784x256, .f32⟩
  | .hbm, ⟨21, _⟩ => ⟨S_, .f32⟩
  | .hbm, ⟨22, _⟩ => ⟨S784x256, .f32⟩
  | .hbm, ⟨23, _⟩ => ⟨S784x256, .f32⟩
  | .hbm, ⟨24, _⟩ => ⟨S784x256, .f32⟩
  | .hbm, ⟨25, _⟩ => ⟨S200704, .f32⟩
  | .hbm, ⟨26, _⟩ => ⟨S200000, .f32⟩
  | .local _ .vmem, ⟨0, _⟩ => ⟨S200x128, .i32⟩
  | .local _ .vmem, ⟨1, _⟩ => ⟨S200x128, .i32⟩
  | .local _ .vmem, ⟨2, _⟩ => ⟨S1x784x256, .f32⟩
  | .local _ .vmem, ⟨3, _⟩ => ⟨S1x784x256, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 250], ![false, false]⟩

@[reducible] def k0_t1_loop : Scf.Loop 32 :=
  let c0_i32_1 : BitVec 32 := 0#32
  let c25_i32 : BitVec 32 := 25#32
  let v5 : BitVec 32 := Scalar.addi c0_i32_1 c25_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg4 : BitVec 32 := Scf.iv c0_i32_1 c1_i32 k0_t1
  let c8_i32 : BitVec 32 := 8#32
  let v6 : BitVec 32 := Scalar.muli arg4 c8_i32
  v6
def k0_off1 (k0_t1 : Fin k0_t1_loop.trips) : Fin 2 → Nat :=
  let c0_i32_1 : BitVec 32 := 0#32
  let c1_i32 : BitVec 32 := 1#32
  let arg4 : BitVec 32 := Scf.iv c0_i32_1 c1_i32 k0_t1
  let c8_i32 : BitVec 32 := 8#32
  let v6 : BitVec 32 := Scalar.muli arg4 c8_i32
  let v7 : BitVec 32 := v6
  let v8 : Index := Scalar.indexCast v7
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x784x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S4x1600000_S6400000 : S4x1600000.ShapeCasts S6400000
  concatenates_S6400000_S6400000_S12800000_d0 : Shape.Concatenates [S6400000, S6400000] S12800000 0
  shapeCasts_S12800000_S100000x128 : S12800000.ShapeCasts S100000x128
  inb_S1x784x256_S1x784x256_0_0_0 : ∀ a, (![0, 0, 0] : Fin 3 → Nat) a + S1x784x256.size a ≤ S1x784x256.size a
  h_S1x784x256 : 0 < S1x784x256.numel
  shapeCasts_S1x784x256_S784x256 : S1x784x256.ShapeCasts S784x256
  shapeCasts_S784x256_S1x784x256 : S784x256.ShapeCasts S1x784x256
  iota_S1x1x784_d2_w32 : S1x1x784.Iotas .tc 32 [2]
  iota_S1x1x256_d2_w32 : S1x1x256.Iotas .tc 32 [2]
  h_S8x128 : 0 < S8x128.numel
  shapeCasts_S8x128_S8x128 : S8x128.ShapeCasts S8x128
  shapeCasts_S8x128_S8x128x1 : S8x128.ShapeCasts S8x128x1
  broadcasts_S8x128x1_S8x128x784 : S8x128x1.Broadcasts S8x128x784
  broadcasts_S1x1x784_S8x128x784 : S1x1x784.Broadcasts S8x128x784
  natLt_1_32 : 1 < 32
  bitsLt_bf16_f32 : FTy.bits .bf16 < FTy.bits .f32
  broadcasts_S8x128x1_S8x128x256 : S8x128x1.Broadcasts S8x128x256
  broadcasts_S1x1x256_S8x128x256 : S1x1x256.Broadcasts S8x128x256
  reduces_S8x784x256_S784x256 : S8x784x256.Reduces [0] S784x256
  slices_S2x784x256_S1x784x256_0_0_0 : S2x784x256.Slices ![0, 0, 0] S1x784x256
  slices_S2x784x256_S1x784x256_1_0_0 : S2x784x256.Slices ![1, 0, 0] S1x784x256
  bcast_S_S784x256 : S_.BroadcastsInDim S784x256 (![] : Fin 0 → Fin S784x256.rank)
  shapeCasts_S784x256_S200704 : S784x256.ShapeCasts S200704
  slices_S200704_S200000_0 : S200704.Slices ![0] S200000
  dot_S8x128x784_S8x128x256_S8x784x256_1_1_2_2_0_0_wf : DotDims.WF S8x128x784 S8x128x256 S8x784x256 [1] [1] [2] [2] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S200x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S100000x128.size a
  hwx0_0 : ∀ i : grid0.Coords, EltTy.bits .i32 = 32 ∨ (Rect.block (s := S100000x128) S200x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x784x256.size a ≤ S2x784x256.size a
  hwx0_1 : ∀ i : grid0.Coords, EltTy.bits .f32 = 32 ∨ (Rect.block (s := S2x784x256) S1x784x256.size (cc0_transform_1 i) (hinb0_1 i)).WholeWords (EltTy.packing .f32)

variable [Facts₀]

def dot_S8x128x784_S8x128x256_S8x784x256_1_1_2_2_0_0 : DotDims S8x128x784 S8x128x256 S8x784x256 where
  lhsContracting := [1]
  rhsContracting := [1]
  lhsNonContracting := [2]
  rhsNonContracting := [2]
  lhsBatch := [0]
  rhsBatch := [0]
  wf := dot_S8x128x784_S8x128x256_S8x784x256_1_1_2_2_0_0_wf

abbrev win0_0 : Pipeline.Window sig grid0 :=
  Pipeline.Window.ofSpec (Memref.whole main_v3) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x784x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200000x128 : Shape := ⟨2, ![200000, 128]⟩
abbrev S4x1600000 : Shape := ⟨2, ![4, 1600000]⟩
abbrev S_ : Shape := ⟨0, ![]⟩
abbrev S6400000 : Shape := ⟨1, ![6400000]⟩
abbrev S200000 : Shape := ⟨1, ![200000]⟩
abbrev S6400000x1 : Shape := ⟨2, ![6400000, 1]⟩

abbrev nBuf : Space → Nat
  | .hbm => 28
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S4x1600000, .i32⟩
  | .hbm, ⟨2, _⟩ => ⟨S4x1600000, .i32⟩
  | .hbm, ⟨3, _⟩ => ⟨S_, .f32⟩
  | .hbm, ⟨4, _⟩ => ⟨S6400000, .f32⟩
  | .hbm, ⟨5, _⟩ => ⟨S6400000, .i32⟩
  | .hbm, ⟨6, _⟩ => ⟨S_, .f32⟩
  | .hbm, ⟨7, _⟩ => ⟨S200000, .f32⟩
  | .hbm, ⟨8, _⟩ => ⟨S6400000x1, .i32⟩
  | .hbm, ⟨9, _⟩ => ⟨S200000, .f32⟩
  | .hbm, ⟨10, _⟩ => ⟨S6400000, .i32⟩
  | .hbm, ⟨11, _⟩ => ⟨S_, .f32⟩
  | .hbm, ⟨12, _⟩ => ⟨S200000, .f32⟩
  | .hbm, ⟨13, _⟩ => ⟨S6400000x1, .i32⟩
  | .hbm, ⟨14, _⟩ => ⟨S200000, .f32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_call0_v0 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  shapeCasts_S4x1600000_S6400000 : S4x1600000.ShapeCasts S6400000
  bcast_S_S200000 : S_.BroadcastsInDim S200000 (![] : Fin 0 → Fin S200000.rank)
  bcast_S6400000_S6400000x1_0 : S6400000.BroadcastsInDim S6400000x1 (![0] : Fin 1 → Fin S6400000x1.rank)
  scatter_S200000_S6400000x1_S6400000_n_0_0_1_wf : ScatterDims.WF S200000 S6400000x1 S6400000 [] [0] [0] 1

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-! # Node degrees from two edge tables, and the guarded reciprocal

Two relation tables of shape [4, 1600000] hold node numbers as 32-bit words read signed. A node's degree is the number of
entries of the second table that name it, plus the number of entries of the first table that name it, plus four (one
self-loop per relation); the result at a node is the reciprocal of that degree, with a zero where the degree is zero.
An entry that names no node (a negative word, or one past the last node) is counted nowhere. Everything here is a
function of the two tables alone, stated over the extended reals. -/

noncomputable section

open scoped BigOperators

namespace Cert.Hist

open Idealize.ShloMosaic Idealize.ShloMosaic.ValueIdx

/-- One where the word `w`, read signed, is the integer `v`; zero elsewhere. -/
def hitW (w : BitVec 32) (v : ℤ) : EReal := if w.toInt = v then 1 else 0

/-- Entry `e` of a [4, 1600000] table in row-major order (`e = 1600000 * row + column`); zero past the table. -/
def flatWord (a : (⟨2, ![4, 1600000]⟩ : Shape).Idx → BitVec 32) (e : ℕ) : BitVec 32 :=
  if h : e < 6400000 then a (ix2 (⟨e / 1600000, by omega⟩ : Fin 4) (⟨e % 1600000, Nat.mod_lt _ (by norm_num)⟩ : Fin 1600000)) else 0

/-- How many entries of a table name the node `v`. -/
def deg1 (a : (⟨2, ![4, 1600000]⟩ : Shape).Idx → BitVec 32) (v : ℤ) : EReal :=
  ∑ e ∈ Finset.range 6400000, hitW (flatWord a e) v

/-- The stream of 12800000 words the kernel reads: the table `a2` flattened, then the table `a1` flattened. -/
def catWord (a2 a1 : (⟨2, ![4, 1600000]⟩ : Shape).Idx → BitVec 32) (f : ℕ) : BitVec 32 :=
  if f < 6400000 then flatWord a2 f else flatWord a1 (f - 6400000)

/-- How many words of a stream, at the positions from `lo` up to `hi`, name the node `v`. -/
def cnt (e : ℕ → BitVec 32) (v : ℤ) (lo hi : ℕ) : EReal := ∑ f ∈ Finset.Ico lo hi, hitW (e f) v

/-- The last lines of both programs at one element: `d + 4`, and its reciprocal unless it is zero. -/
def recipGuard (d : Ideal .f32) : Ideal .f32 :=
  Scalar.select
    (FloatOps.cmpf .oeq (FloatOps.addf d (FloatOps.ofBits (F := Ideal) .f32 0x40800000#32)) (FloatOps.ofBits (F := Ideal) .f32 0x00000000#32))
    (FloatOps.ofBits (F := Ideal) .f32 0x00000000#32)
    (FloatOps.hostDivf (FloatOps.ofBits (F := Ideal) .f32 0x3F800000#32) (FloatOps.addf d (FloatOps.ofBits (F := Ideal) .f32 0x40800000#32)))

/-- THE RESULT both programs compute, as a function of the two tables: at node `i` the guarded reciprocal of the number
    of entries of `a2` naming `i` plus the number of entries of `a1` naming `i` (plus four, inside `recipGuard`). -/
def spec (a1 a2 : (⟨2, ![4, 1600000]⟩ : Shape).Idx → BitVec 32) : (⟨1, ![200000]⟩ : Shape).Idx → Ideal .f32 :=
  fun i => recipGuard (deg1 a2 ((i 0).val : ℤ) + deg1 a1 ((i 0).val : ℤ))

end Cert.Hist

end
-- ==== Proof.LibScatterAddVec.lean ====
import Idealize.ShloMosaic.PureOps.Ideal
import Idealize.ShloMosaic.PureOps.Contract
import Idealize.ShloMosaic.Lib.ValueIdx

/-! # A float scatter-add of scalars into a flat array, read at an index

The accumulating float scatter `Host.scatterAdd d x idx upd` at the ideal values is, at every operand element, that
element plus the sum of the update elements that land on it. Worked out here, at any extents, for SCALARS added into a
rank-1 operand: operand `[N]`, scatter indices `[K, 1]` (the index vector on axis 1), updates `[K]`; update `e` is added
to the operand element named by the scatter index `idx[e, 0]` read as a SIGNED integer, and is dropped when that integer
is not a position of the operand (jax's `jax.ops.segment_sum` of a vector, `.at[ids].add(v)`). So operand element `i`
receives exactly the updates `e` whose scatter index is `i` (`hostScatterAdd_vec_apply`). Stated at the literal
dimension-number record `vecAddDims` and for ANY record with these fields. -/

open scoped BigOperators

namespace Idealize.ShloMosaic.ScatterAddVec

open Idealize.ShloMosaic Idealize.ShloMosaic.ValueIdx

/-- The dimension numbers of a scalar scatter into a vector: operand `[N]`, scatter indices `[K, 1]`, updates `[K]`; the
    update has no window axis, the operand's one axis is the inserted (scattered) axis. -/
abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

/-- The window of update `e` starts at the scatter index `idx[e, 0]`, read signed. -/
theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The one operand axis is inserted: no window coordinate on it. -/
theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

/-- WHERE AN UPDATE LANDS: update `e` lands on operand element `i` exactly when its scatter index reads `i`. -/
theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

/-- THE SCALAR SCATTER-ADD AT THE LITERAL RECORD, READ AT `i`: the operand's element plus the sum, over the updates `e`
    whose scatter index is `i`, of the update `e`. -/
theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

/-- THE SCALAR SCATTER-ADD AT ANY RECORD WITH THESE FIELDS, READ AT `i`: a record is its fields, so it is the literal
    one. -/
theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.RefValue.lean ====
import proofs.«406339_j80221399155530_1_alg».proof.Proof.Spec
import proofs.«406339_j80221399155530_1_alg».proof.Proof.LibScatterAddVec
import proofs.«406339_j80221399155530_1_alg».proof.Proof.RefRunPatched
import proofs.«406339_j80221399155530_1_alg».proof.Proof.RefReadPatched
import Idealize.ShloMosaic.Lib.Pipeline.Value
import Idealize.ShloMosaic.Lib.ValueLayout
import Idealize.ShloMosaic.Lib.StableHlo.Run
import Idealize.ShloMosaic.PureOps.IdealRules
import Mathlib.Algebra.BigOperators.Fin

/-! # The reference's result is the guarded reciprocal of the node degrees

The reference flattens each of the two tables to 6400000 words in row-major order and adds a one into a zero array of
200000 nodes at the node each word names (a word naming no node adds nowhere); so each accumulation, read at node `i`,
is the number of table entries that name `i`. The two counts are added (the second table's first), four is added, and
the result is the reciprocal, with a zero where the sum is zero: the specification's value at `i`. -/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Hist

open Cert.ReferenceIdeal Cert.ReferenceIdeal.Gen Cert.Hist

/-! ## The index words and the constant arrays at an element -/

/-- The first accumulation's index array at entry `e` is the table's entry `e` in row-major order. -/
theorem idxWord_v3 (x : (⟨S4x1600000, .i32⟩ : BufTy).Contents (Elt Ideal)) (e : Fin 6400000) :
    PatchedRead.val_main_v3 (F := Ideal) x (ix2 e (0 : Fin 1)) = flatWord x e.val := by
  rw [PatchedRead.val_main_v3_apply, PatchedRead.val_main_v1_apply]
  unfold flatWord
  rw [dif_pos e.isLt]
  congr 1
  funext a
  match a with
  | ⟨0, _⟩ => rfl
  | ⟨1, _⟩ => rfl

/-- The second accumulation's index array at entry `e` is its table's entry `e` in row-major order. -/
theorem idxWord_v7 (x : (⟨S4x1600000, .i32⟩ : BufTy).Contents (Elt Ideal)) (e : Fin 6400000) :
    PatchedRead.val_main_v7 (F := Ideal) x (ix2 e (0 : Fin 1)) = flatWord x e.val := by
  rw [PatchedRead.val_main_v7_apply, PatchedRead.val_main_v5_apply]
  unfold flatWord
  rw [dif_pos e.isLt]
  congr 1
  funext a
  match a with
  | ⟨0, _⟩ => rfl
  | ⟨1, _⟩ => rfl

/-- Every update is a one. -/
theorem ones_apply (e : Fin 6400000) : PatchedRead.val_main_v0 (F := Ideal) (ix1 e) = 1 := by
  rw [PatchedRead.val_main_v0_apply, PatchedRead.val_main_cst_apply]
  exact IdealRules.sign_bit.ideal_onePat .f32

/-- The first accumulation starts from zero everywhere. -/
theorem zeros2_apply (i : Fin 200000) : PatchedRead.val_main_v2 (F := Ideal) (ix1 i) = 0 := by
  rw [PatchedRead.val_main_v2_apply, PatchedRead.val_main_cst_0_apply]
  exact Ideal.ofBits_zero_f32

/-- The second accumulation starts from zero everywhere. -/
theorem zeros6_apply (i : Fin 200000) : PatchedRead.val_main_v6 (F := Ideal) (ix1 i) = 0 := by
  rw [PatchedRead.val_main_v6_apply, PatchedRead.val_main_cst_1_apply]
  exact Ideal.ofBits_zero_f32

/-! ## Each accumulation counts the entries that name a node

At the extended reals an accumulation is, as a whole array, the operand plus the exact sum of the updates landing on each
element; read at node `i` with every update a one and the operand zero, that sum is the count of entries naming `i`. -/

/-- At the extended reals the accumulating scatter is the exact sum, as whole arrays. -/
theorem hostAdd_eq (x0 : FVec Ideal S200000 .f32) (idx : IVec S6400000x1 32) (upd : FVec Ideal S6400000 .f32) :
    Host.scatterAdd scatter_S200000_S6400000x1_S6400000_n_0_0_1 x0 idx upd
      = Ideal.hostScatterAdd scatter_S200000_S6400000x1_S6400000_n_0_0_1 x0 idx upd := rfl

/-- The scatter read at node `i`: the operand there plus the updates whose index word reads `i`. -/
theorem scatter_at (x0 : FVec Ideal S200000 .f32) (idx : IVec S6400000x1 32) (upd : FVec Ideal S6400000 .f32)
    (i : Fin 200000) :
    Host.scatterAdd scatter_S200000_S6400000x1_S6400000_n_0_0_1 x0 idx upd (ix1 i)
      = x0 (ix1 i) + ∑ e ∈ Finset.univ.filter (fun e : Fin 6400000 => (idx (ix2 e (0 : Fin 1))).toInt = (i.val : Int)), upd (ix1 e) := by
  rw [hostAdd_eq]
  exact ScatterAddVec.hostScatterAdd_vec_apply scatter_S200000_S6400000x1_S6400000_n_0_0_1 rfl rfl rfl rfl x0 idx upd i

/-- The first scatter at node `i` counts the entries of the table that name `i`. -/
theorem deg_v4 (x : (⟨S4x1600000, .i32⟩ : BufTy).Contents (Elt Ideal)) (i : Fin 200000) :
    PatchedRead.val_main_v4 (F := Ideal) x (ix1 i) = deg1 x (i.val : ℤ) := by
  refine (scatter_at (PatchedRead.val_main_v2 (F := Ideal)) (PatchedRead.val_main_v3 (F := Ideal) x)
    (PatchedRead.val_main_v0 (F := Ideal)) i).trans ?_
  rw [zeros2_apply, zero_add, Finset.sum_filter]
  unfold deg1
  rw [← Fin.sum_univ_eq_sum_range (fun e => hitW (flatWord x e) (i.val : ℤ)) 6400000]
  refine Finset.sum_congr rfl fun e _ => ?_
  rw [idxWord_v3, ones_apply]
  rfl

/-- The second scatter at node `i` counts the entries of the other table that name `i`. -/
theorem deg_v8 (x : (⟨S4x1600000, .i32⟩ : BufTy).Contents (Elt Ideal)) (i : Fin 200000) :
    PatchedRead.val_main_v8 (F := Ideal) x (ix1 i) = deg1 x (i.val : ℤ) := by
  refine (scatter_at (PatchedRead.val_main_v6 (F := Ideal)) (PatchedRead.val_main_v7 (F := Ideal) x)
    (PatchedRead.val_main_v0 (F := Ideal)) i).trans ?_
  rw [zeros6_apply, zero_add, Finset.sum_filter]
  unfold deg1
  rw [← Fin.sum_univ_eq_sum_range (fun e => hitW (flatWord x e) (i.val : ℤ)) 6400000]
  refine Finset.sum_congr rfl fun e _ => ?_
  rw [idxWord_v7, ones_apply]
  rfl

/-! ## The last lines at an element -/

/-- The reference's result at node `i`: the guarded reciprocal of the two degrees' sum. -/
theorem val_at (x1 x2 : (⟨S4x1600000, .i32⟩ : BufTy).Contents (Elt Ideal)) (i : Fin 200000) :
    PatchedRead.val_main_v16 (F := Ideal) x1 x2 (ix1 i)
      = recipGuard (deg1 x2 (i.val : ℤ) + deg1 x1 (i.val : ℤ)) := by
  rw [PatchedRead.val_main_v16_apply, PatchedRead.val_main_v13_apply, PatchedRead.val_main_v15_apply,
    PatchedRead.val_main_v11_apply, PatchedRead.val_main_v9_apply,
    PatchedRead.val_main_v10_apply, PatchedRead.val_main_cst_2_apply,
    PatchedRead.val_main_v12_apply, PatchedRead.val_main_cst_3_apply,
    PatchedRead.val_main_call0_v0_apply, PatchedRead.val_main_cst_5_apply,
    PatchedRead.val_main_v14_apply, PatchedRead.val_main_cst_4_apply,
    deg_v4, deg_v8, Ideal.addf_def (x := deg1 x2 (i.val : ℤ)) (y := deg1 x1 (i.val : ℤ))]
  rfl

/-! ## The run -/

/-- The reference's run: its result array ends holding the guarded reciprocal of the degrees, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
          = spec (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (by
      refine (PatchedRead.val_main_v16_eq (F := Ideal) _ _).trans ?_
      funext j
      obtain ⟨a, rfl⟩ : ∃ a, j = ix1 a := ⟨j 0, eq_ix1 j⟩
      exact val_at _ _ a), (h c).2⟩)
    (PatchedValue.run (F := Ideal) m ρ)

end Cert.ReferenceIdeal.Hist

end
-- ==== Proof.CountSums.lean ====
import proofs.«406339_j80221399155530_1_alg».proof.Proof.Spec
import Mathlib.Algebra.BigOperators.Intervals
import Mathlib.Algebra.BigOperators.Fin

/-! # Counting hits over stretches of a word stream

The number of words naming a node, over a stretch of positions, is additive over consecutive stretches; a stretch of
`R` rows of `L` lanes is the double sum over rows and lanes; and the two halves of the kernel's stream are the two
tables. -/

noncomputable section

open scoped BigOperators

namespace Cert.Hist

open Idealize.ShloMosaic Idealize.ShloMosaic.ValueIdx

/-- A sum over the first `a * b` positions is the double sum over `a` rows of `b` positions. -/
theorem sum_range_mul {M : Type*} [AddCommMonoid M] (G : ℕ → M) (a b : ℕ) :
    ∑ q ∈ Finset.range (a * b), G q = ∑ i ∈ Finset.range a, ∑ j ∈ Finset.range b, G (i * b + j) := by
  induction a with
  | zero => simp
  | succ a ih => rw [Nat.succ_mul, Finset.sum_range_add, ih, Finset.sum_range_succ]

/-- An empty stretch has no hit. -/
theorem cnt_self (e : ℕ → BitVec 32) (v : ℤ) (a : ℕ) : cnt e v a a = 0 := by
  unfold cnt; rw [Finset.Ico_self, Finset.sum_empty]

/-- Hits over consecutive stretches add. -/
theorem cnt_add (e : ℕ → BitVec 32) (v : ℤ) {a b c : ℕ} (hab : a ≤ b) (hbc : b ≤ c) :
    cnt e v a b + cnt e v b c = cnt e v a c :=
  Finset.sum_Ico_consecutive _ hab hbc

/-- `R` rows of `L` lanes starting at position `base`: the double sum over rows and lanes is the stretch's count. -/
theorem cnt_rows (e : ℕ → BitVec 32) (v : ℤ) (base R L : ℕ) :
    ∑ r : Fin R, ∑ q : Fin L, hitW (e (base + (r.val * L + q.val))) v = cnt e v base (base + R * L) := by
  unfold cnt
  rw [Finset.sum_Ico_eq_sum_range, Nat.add_sub_cancel_left, sum_range_mul,
    ← Fin.sum_univ_eq_sum_range (fun i => ∑ j ∈ Finset.range L, hitW (e (base + (i * L + j))) v) R]
  refine Finset.sum_congr rfl fun r _ => ?_
  rw [← Fin.sum_univ_eq_sum_range (fun j => hitW (e (base + (r.val * L + j))) v) L]

/-- The first half of the stream is the second table. -/
theorem cnt_first_half (a2 a1 : (⟨2, ![4, 1600000]⟩ : Shape).Idx → BitVec 32) (v : ℤ) :
    cnt (catWord a2 a1) v 0 6400000 = deg1 a2 v := by
  unfold cnt deg1
  rw [← Finset.range_eq_Ico]
  refine Finset.sum_congr rfl fun f hf => ?_
  have hf' : f < 6400000 := Finset.mem_range.mp hf
  unfold catWord; rw [if_pos hf']

/-- The second half of the stream is the first table. -/
theorem cnt_second_half (a2 a1 : (⟨2, ![4, 1600000]⟩ : Shape).Idx → BitVec 32) (v : ℤ) :
    cnt (catWord a2 a1) v 6400000 12800000 = deg1 a1 v := by
  unfold cnt deg1
  rw [Finset.sum_Ico_eq_sum_range]
  refine Finset.sum_congr rfl fun f hf => ?_
  unfold catWord; rw [if_neg (by omega), Nat.add_sub_cancel_left]

end Cert.Hist

end
-- ==== Proof.TripValue.lean ====
import proofs.«406339_j80221399155530_1_alg».proof.Proof.Spec
import proofs.«406339_j80221399155530_1_alg».proof.Proof.Gen.KernelIdeal.Skeleton
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Hist

namespace TripValue

/-! ## A word, read signed, against its high and low parts -/

/-- A 32-bit word is the node `256 h + l` (read signed, with `h < 784` and `l < 256`) exactly when its arithmetic shift
    right by 8 is `h` and its low 8 bits are `l`. -/
theorem word_split (x : BitVec 32) (h l : ℕ) (hh : h < 784) (hl : l < 256) :
    (x.sshiftRight 8 = BitVec.ofNat 32 h ∧ x &&& 255#32 = BitVec.ofNat 32 l) ↔ x.toInt = 256 * (h : ℤ) + (l : ℤ) := by
  have e1 : (x.sshiftRight 8 = BitVec.ofNat 32 h) ↔ x.toInt / 256 = (h : ℤ) := by
    rw [← BitVec.toInt_inj, BitVec.toInt_sshiftRight, Int.shiftRight_eq_div_pow,
      BitVec.toInt_eq_toNat_cond (BitVec.ofNat 32 h), BitVec.toNat_ofNat]
    have hm : h % 2 ^ 32 = h := Nat.mod_eq_of_lt (by omega)
    rw [hm]
    simp only [Nat.reducePow]
    split <;> omega
  have e2 : (x &&& 255#32 = BitVec.ofNat 32 l) ↔ x.toNat % 256 = l := by
    rw [← BitVec.toNat_inj, BitVec.toNat_and, BitVec.toNat_ofNat 255, BitVec.toNat_ofNat l]
    have h255 : 255 % 2 ^ 32 = 2 ^ 8 - 1 := by norm_num
    have hm : l % 2 ^ 32 = l := Nat.mod_eq_of_lt (by omega)
    rw [h255, Nat.and_two_pow_sub_one_eq_mod, hm]
  rw [e1, e2, BitVec.toInt_eq_toNat_cond]
  have := x.isLt
  simp only [Nat.reducePow]
  split <;> omega

/-- The product of the two indicators is the indicator that the word names the node. -/
theorem indicator_mul (x : BitVec 32) (h : Fin 784) (l : Fin 256) :
    ((if x.sshiftRight 8 = BitVec.ofNat 32 h.val then (1 : EReal) else 0) * (if x &&& 255#32 = BitVec.ofNat 32 l.val then (1 : EReal) else 0))
      = hitW x (256 * (h.val : ℤ) + (l.val : ℤ)) := by
  unfold hitW
  have hw := word_split x h.val l.val h.isLt l.isLt
  by_cases a : x.sshiftRight 8 = BitVec.ofNat 32 h.val
  · by_cases b : x &&& 255#32 = BitVec.ofNat 32 l.val
    · rw [if_pos a, if_pos b, if_pos (hw.mp ⟨a, b⟩), one_mul]
    · rw [if_pos a, if_neg b, if_neg (fun e => b (hw.mpr e).2), mul_zero]
  · rw [if_neg a, if_neg (fun e => a (hw.mpr e).1), zero_mul]

/-! ## One factor of the product: a comparison turned into a 0/1 value -/

/-- An equality test of two words, widened to 32 bits and read as a signed integer, is 1 where they agree and 0 elsewhere. -/
theorem onehot_val (a b : BitVec 32) :
    (FloatOps.sitofp (F := Ideal) .f32 ((IntOp.cmpi .eq a b).setWidth 32) : Ideal .f32) = if a = b then 1 else 0 := by
  show ((((BitVec.ofBool (a == b)).setWidth 32).toInt : ℝ) : EReal) = _
  by_cases hab : a = b
  · have hb : (a == b) = true := by rw [hab]; exact beq_self_eq_true b
    have e : ((BitVec.ofBool true).setWidth 32).toInt = 1 := by decide
    rw [if_pos hab, hb, e]
    norm_num
  · have hb : (a == b) = false := beq_eq_false_iff_ne.mpr hab
    have e : ((BitVec.ofBool false).setWidth 32).toInt = 0 := by decide
    rw [if_neg hab, hb, e]
    norm_num

/-! ## The two operands of the product at an index -/

/-- The left operand at (r, q, h): 1 where the word at (r, q), shifted right by 8, is `h`. -/
theorem lhs_factor (x : Vec Ideal S8x128 .i32) (r : Fin 8) (q : Fin 128) (h : Fin 784) :
    (truncf .bf16 (sitofp .f32 (extui 32 (cmpi .eq
        (broadcastTo S8x128x784 (shapeCast S8x128x1 (shrsi (shapeCast S8x128 x shapeCasts_S8x128_S8x128) (broadcast S8x128 8#32))
          shapeCasts_S8x128_S8x128x1) broadcasts_S8x128x1_S8x128x784)
        (broadcastTo S8x128x784 (iota .tc S1x1x784 32 [2] iota_S1x1x784_d2_w32) broadcasts_S1x1x784_S8x128x784))
        natLt_1_32)) bitsLt_bf16_f32 : FVec Ideal S8x128x784 .bf16) (ix3 r q h)
      = if (x (ix2 r q)).sshiftRight 8 = BitVec.ofNat 32 h.val then 1 else 0 := by
  have eA : broadcastTo S8x128x784 (shapeCast S8x128x1 (shrsi (shapeCast S8x128 x shapeCasts_S8x128_S8x128) (broadcast S8x128 8#32))
      shapeCasts_S8x128_S8x128x1) broadcasts_S8x128x1_S8x128x784 (ix3 r q h) = (x (ix2 r q)).sshiftRight 8 := by
    refine (broadcastTo_apply _ _ (ix3 r q h) (ix3 r q (0 : Fin 1)) fun a => ?_).trans ?_
    · match a with
      | ⟨0, _⟩ => rfl
      | ⟨1, _⟩ => rfl
      | ⟨2, _⟩ => rfl
    refine (shapeCast_apply _ _ (ix3 r q (0 : Fin 1)) (ix2 r q) ?_).trans ?_
    · rw [Shape.rowMajor_val_three, Shape.rowMajor_val_two]
      show r.val * 128 + q.val = (r.val * 128 + q.val) * 1 + 0
      omega
    rw [shapeCast_self]
    rfl
  have eB : broadcastTo S8x128x784 (iota .tc S1x1x784 32 [2] iota_S1x1x784_d2_w32) broadcasts_S1x1x784_S8x128x784 (ix3 r q h)
      = BitVec.ofNat 32 h.val := by
    refine (broadcastTo_apply _ _ (ix3 r q h) (ix3 (0 : Fin 1) (0 : Fin 1) h) fun a => ?_).trans ?_
    · match a with
      | ⟨0, _⟩ => rfl
      | ⟨1, _⟩ => rfl
      | ⟨2, _⟩ => rfl
    show BitVec.ofNat 32 (0 * 784 + h.val) = _
    rw [Nat.zero_mul, Nat.zero_add]
  rw [truncf_apply, sitofp_apply, extui_apply]
  show FloatOps.sitofp (F := Ideal) .f32 ((IntOp.cmpi .eq _ _).setWidth 32) = _
  rw [eA, eB]
  exact onehot_val _ _

/-- The right operand at (r, q, l): 1 where the low 8 bits of the word at (r, q) are `l`. -/
theorem rhs_factor (x : Vec Ideal S8x128 .i32) (r : Fin 8) (q : Fin 128) (l : Fin 256) :
    (truncf .bf16 (sitofp .f32 (extui 32 (cmpi .eq
        (broadcastTo S8x128x256 (shapeCast S8x128x1 (andi (shapeCast S8x128 x shapeCasts_S8x128_S8x128) (broadcast S8x128 255#32))
          shapeCasts_S8x128_S8x128x1) broadcasts_S8x128x1_S8x128x256)
        (broadcastTo S8x128x256 (iota .tc S1x1x256 32 [2] iota_S1x1x256_d2_w32) broadcasts_S1x1x256_S8x128x256))
        natLt_1_32)) bitsLt_bf16_f32 : FVec Ideal S8x128x256 .bf16) (ix3 r q l)
      = if x (ix2 r q) &&& 255#32 = BitVec.ofNat 32 l.val then 1 else 0 := by
  have eA : broadcastTo S8x128x256 (shapeCast S8x128x1 (andi (shapeCast S8x128 x shapeCasts_S8x128_S8x128) (broadcast S8x128 255#32))
      shapeCasts_S8x128_S8x128x1) broadcasts_S8x128x1_S8x128x256 (ix3 r q l) = x (ix2 r q) &&& 255#32 := by
    refine (broadcastTo_apply _ _ (ix3 r q l) (ix3 r q (0 : Fin 1)) fun a => ?_).trans ?_
    · match a with
      | ⟨0, _⟩ => rfl
      | ⟨1, _⟩ => rfl
      | ⟨2, _⟩ => rfl
    refine (shapeCast_apply _ _ (ix3 r q (0 : Fin 1)) (ix2 r q) ?_).trans ?_
    · rw [Shape.rowMajor_val_three, Shape.rowMajor_val_two]
      show r.val * 128 + q.val = (r.val * 128 + q.val) * 1 + 0
      omega
    rw [shapeCast_self]
    rfl
  have eB : broadcastTo S8x128x256 (iota .tc S1x1x256 32 [2] iota_S1x1x256_d2_w32) broadcasts_S1x1x256_S8x128x256 (ix3 r q l)
      = BitVec.ofNat 32 l.val := by
    refine (broadcastTo_apply _ _ (ix3 r q l) (ix3 (0 : Fin 1) (0 : Fin 1) l) fun a => ?_).trans ?_
    · match a with
      | ⟨0, _⟩ => rfl
      | ⟨1, _⟩ => rfl
      | ⟨2, _⟩ => rfl
    show BitVec.ofNat 32 (0 * 256 + l.val) = _
    rw [Nat.zero_mul, Nat.zero_add]
  rw [truncf_apply, sitofp_apply, extui_apply]
  show FloatOps.sitofp (F := Ideal) .f32 ((IntOp.cmpi .eq _ _).setWidth 32) = _
  rw [eA, eB]
  exact onehot_val _ _

/-! ## The operand indices of the batched product, axis by axis -/

theorem lhs_ax0 (j : S8x784x256.Idx) (k : dot_S8x128x784_S8x128x256_S8x784x256_1_1_2_2_0_0.contr.Idx) :
    (dot_S8x128x784_S8x128x256_S8x784x256_1_1_2_2_0_0.lhsIdx j k 0 : ℕ) = j 0 := by
  simp [DotDims.lhsIdx, dot_S8x128x784_S8x128x256_S8x784x256_1_1_2_2_0_0]; rfl
theorem lhs_ax1 (j : S8x784x256.Idx) (k : dot_S8x128x784_S8x128x256_S8x784x256_1_1_2_2_0_0.contr.Idx) :
    (dot_S8x128x784_S8x128x256_S8x784x256_1_1_2_2_0_0.lhsIdx j k 1 : ℕ) = k ⟨0, by decide⟩ := by
  simp [DotDims.lhsIdx, dot_S8x128x784_S8x128x256_S8x784x256_1_1_2_2_0_0]; rfl
theorem lhs_ax2 (j : S8x784x256.Idx) (k : dot_S8x128x784_S8x128x256_S8x784x256_1_1_2_2_0_0.contr.Idx) :
    (dot_S8x128x784_S8x128x256_S8x784x256_1_1_2_2_0_0.lhsIdx j k 2 : ℕ) = j 1 := by
  simp [DotDims.lhsIdx, dot_S8x128x784_S8x128x256_S8x784x256_1_1_2_2_0_0]; rfl
theorem rhs_ax0 (j : S8x784x256.Idx) (k : dot_S8x128x784_S8x128x256_S8x784x256_1_1_2_2_0_0.contr.Idx) :
    (dot_S8x128x784_S8x128x256_S8x784x256_1_1_2_2_0_0.rhsIdx j k 0 : ℕ) = j 0 := by
  simp [DotDims.rhsIdx, dot_S8x128x784_S8x128x256_S8x784x256_1_1_2_2_0_0]; rfl
theorem rhs_ax1 (j : S8x784x256.Idx) (k : dot_S8x128x784_S8x128x256_S8x784x256_1_1_2_2_0_0.contr.Idx) :
    (dot_S8x128x784_S8x128x256_S8x784x256_1_1_2_2_0_0.rhsIdx j k 1 : ℕ) = k ⟨0, by decide⟩ := by
  simp [DotDims.rhsIdx, dot_S8x128x784_S8x128x256_S8x784x256_1_1_2_2_0_0]; rfl
theorem rhs_ax2 (j : S8x784x256.Idx) (k : dot_S8x128x784_S8x128x256_S8x784x256_1_1_2_2_0_0.contr.Idx) :
    (dot_S8x128x784_S8x128x256_S8x784x256_1_1_2_2_0_0.rhsIdx j k 2 : ℕ) = j 2 := by
  simp [DotDims.rhsIdx, dot_S8x128x784_S8x128x256_S8x784x256_1_1_2_2_0_0]; rfl

end TripValue

open TripValue

/-! ## The two stores' payloads -/

/-- The block the reset stores is zero everywhere. -/
theorem pay1_apply (j : S1x784x256.Idx) : k0_pay1 (F := Ideal) j = 0 := by
  obtain ⟨u, h, l, rfl⟩ : ∃ (u : Fin 1) (h : Fin 784) (l : Fin 256), j = ix3 u h l := ⟨j 0, j 1, j 2, eq_ix3 j⟩
  unfold k0_pay1
  refine (shapeCast_ab_1ab_apply _ _ u h l).trans ?_
  exact Ideal.ofBits_zero_f32

/-- One trip's store at the cell (h, l): what was there, plus the number of the 8 x 128 words that name node 256 h + l. -/
theorem pay2_apply (x : Vec Ideal S8x128 .i32) (g : Vec Ideal S1x784x256 .f32) (h : Fin 784) (l : Fin 256) :
    k0_pay2 (F := Ideal) x g (ix3 (0 : Fin 1) h l)
      = g (ix3 (0 : Fin 1) h l) + ∑ r : Fin 8, ∑ q : Fin 128, hitW (x (ix2 r q)) (256 * (h.val : ℤ) + (l.val : ℤ)) := by
  unfold k0_pay2
  refine (shapeCast_ab_1ab_apply _ _ (0 : Fin 1) h l).trans ?_
  rw [addf_apply]
  refine congrArg₂ (· + ·) (shapeCast_1ab_ab_apply g _ h l) ?_
  -- the sum over the 8 rows of the trip
  refine (Ideal.multiReduction_add_single _ _ reduces_S8x784x256_S784x256 _ _ (ix2 h l)).trans ?_
  refine Finset.sum_congr rfl fun (r : Fin 8) _ => ?_
  have hj : reduces_S8x784x256_S784x256.lift (ix2 h l) r = ix3 r h l := by
    funext a; apply Fin.ext
    match a with
    | ⟨0, _⟩ => rfl
    | ⟨1, _⟩ => rfl
    | ⟨2, _⟩ => rfl
  rw [hj]
  -- the product's entry at (r, h, l): the sum over the 128 lanes
  refine (Ideal.matmul_constant_zero_apply dot_S8x128x784_S8x128x256_S8x784x256_1_1_2_2_0_0 none _ _ (ix3 r h l)).trans ?_
  refine (Equiv.sum_comp (contrEquiv1 dot_S8x128x784_S8x128x256_S8x784x256_1_1_2_2_0_0 128 rfl rfl).symm _).symm.trans ?_
  refine Finset.sum_congr rfl fun (q : Fin 128) _ => ?_
  have hq := contrEquiv1_symm_val dot_S8x128x784_S8x128x256_S8x784x256_1_1_2_2_0_0 128 rfl rfl q
  have hL : dot_S8x128x784_S8x128x256_S8x784x256_1_1_2_2_0_0.lhsIdx (ix3 r h l)
      ((contrEquiv1 dot_S8x128x784_S8x128x256_S8x784x256_1_1_2_2_0_0 128 rfl rfl).symm q) = ix3 r q h := by
    funext a; apply Fin.ext
    match a with
    | ⟨0, _⟩ => exact lhs_ax0 _ _
    | ⟨1, _⟩ => exact (lhs_ax1 _ _).trans hq
    | ⟨2, _⟩ => exact lhs_ax2 _ _
  have hR : dot_S8x128x784_S8x128x256_S8x784x256_1_1_2_2_0_0.rhsIdx (ix3 r h l)
      ((contrEquiv1 dot_S8x128x784_S8x128x256_S8x784x256_1_1_2_2_0_0 128 rfl rfl).symm q) = ix3 r q l := by
    funext a; apply Fin.ext
    match a with
    | ⟨0, _⟩ => exact rhs_ax0 _ _
    | ⟨1, _⟩ => exact (rhs_ax1 _ _).trans hq
    | ⟨2, _⟩ => exact rhs_ax2 _ _
  rw [hL, hR, lhs_factor, rhs_factor]
  exact indicator_mul _ h l

end Cert.KernelIdeal.Hist

end
-- ==== Proof.HostPrefix.lean ====
import proofs.«406339_j80221399155530_1_alg».proof.Proof.Spec
import proofs.«406339_j80221399155530_1_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Hist

variable (m : (ℓ : Loc nD τ sig) → Buf (Elt Ideal) ℓ)

/-- The array the region reads, as a term over the two tables: each table flattened, the second table's words first, the
    12800000 words viewed as 100000 rows of 128. -/
theorem edges_term (c : Dev nD) :
    (V m c main_v3 : Vec Ideal S100000x128 .i32)
      = shapeCast S100000x128
          (concatenate S12800000 0
            [⟨S6400000, shapeCast S6400000 (m ((c : Thread nD τ).loc main_arg2) : Vec Ideal S4x1600000 .i32) shapeCasts_S4x1600000_S6400000⟩,
             ⟨S6400000, shapeCast S6400000 (m ((c : Thread nD τ).loc main_arg1) : Vec Ideal S4x1600000 .i32) shapeCasts_S4x1600000_S6400000⟩]
            concatenates_S6400000_S6400000_S12800000_d0)
          shapeCasts_S12800000_S100000x128 := by
  show StableHlo.after hostOps0 (fun b => m (c, b)) (Proc.devRef .tc main_v3) = _
  after_results
  rfl

/-- A [4, 1600000] table flattened, read at position e, is the table's entry e in row-major order. -/
theorem flat_apply (a : (⟨2, ![4, 1600000]⟩ : Shape).Idx → BitVec 32) (h : S4x1600000.ShapeCasts S6400000) (e : ℕ)
    (he : e < 6400000) :
    shapeCast S6400000 a h (ix1 (⟨e, he⟩ : Fin 6400000)) = flatWord a e := by
  unfold flatWord
  rw [dif_pos he]
  exact shapeCast_apply a h _ _ (by
    rw [Shape.rowMajor_val_two, Shape.rowMajor_val_one]
    show e / 1600000 * 1600000 + e % 1600000 = e
    omega)

/-- Two flat arrays of 6400000 words laid end to end, read at position f, are the stream of the specification. -/
theorem cat_apply (x₁ x₂ : (⟨1, ![6400000]⟩ : Shape).Idx → BitVec 32)
    (h : Shape.Concatenates [S6400000, S6400000] S12800000 0) (f : ℕ) (hf : f < 12800000) :
    concatenate S12800000 0 [⟨S6400000, x₁⟩, ⟨S6400000, x₂⟩] h (ix1 (⟨f, hf⟩ : Fin 12800000))
      = if h1 : f < 6400000 then x₁ (ix1 (⟨f, h1⟩ : Fin 6400000))
        else x₂ (ix1 (⟨f - 6400000, by omega⟩ : Fin 6400000)) := by
  by_cases h1 : f < 6400000
  · rw [dif_pos h1]
    exact concatenate_pair_apply_left 0 x₁ x₂ h _ rfl _ (fun b => match b with | ⟨0, _⟩ => rfl)
  · rw [dif_neg h1]
    refine concatenate_pair_apply_right 0 x₁ x₂ h _ rfl rfl _ (fun b hb => ?_) ?_
    · exact absurd (Fin.ext (by have hlt : b.val < 1 := b.isLt; show b.val = 0; omega)) hb
    · show f - 6400000 + 6400000 = f
      omega

/-- The array the region reads, at row r and lane q, is word 128 r + q of the stream: the second table flattened, then the first. -/
theorem edges_eq (c : Dev nD) (r : Fin 100000) (q : Fin 128) :
    (V m c main_v3) (ix2 r q)
      = catWord (m ((c : Thread nD τ).loc main_arg2)) (m ((c : Thread nD τ).loc main_arg1)) (128 * r.val + q.val) := by
  have hf : 128 * r.val + q.val < 12800000 := by omega
  refine (congrFun (edges_term m c) (ix2 r q)).trans ?_
  rw [shapeCast_apply _ shapeCasts_S12800000_S100000x128 (ix2 r q) (ix1 (⟨128 * r.val + q.val, hf⟩ : Fin 12800000)) (by
    rw [Shape.rowMajor_val_two, Shape.rowMajor_val_one]
    show 128 * r.val + q.val = r.val * 128 + q.val
    omega)]
  rw [cat_apply _ _ concatenates_S6400000_S6400000_S12800000_d0 (128 * r.val + q.val) hf]
  unfold catWord
  by_cases h1 : 128 * r.val + q.val < 6400000
  · rw [dif_pos h1, if_pos h1]
    exact flat_apply _ _ _ h1
  · rw [dif_neg h1, if_neg h1]
    exact flat_apply _ _ _ (by omega)

end Cert.KernelIdeal.Hist

end
-- ==== Proof.HostTail.lean ====
import proofs.«406339_j80221399155530_1_alg».proof.Proof.Spec
import proofs.«406339_j80221399155530_1_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Hist

variable (m : (ℓ : Loc nD τ sig) → Buf (Elt Ideal) ℓ)

namespace HostTail

/-- The degree plane: cell (r, c) of the first partial histogram plus cell (r, c) of the second, plus four. -/
def degPlane (H : Vec Ideal S2x784x256 .f32) : FVec Ideal S784x256 .f32 :=
  addf (F := Ideal)
    (addf (F := Ideal)
      (shapeCast S784x256 (extractStridedSlice S1x784x256 ![0, 0, 0] H slices_S2x784x256_S1x784x256_0_0_0) shapeCasts_S1x784x256_S784x256)
      (shapeCast S784x256 (extractStridedSlice S1x784x256 ![1, 0, 0] H slices_S2x784x256_S1x784x256_1_0_0) shapeCasts_S1x784x256_S784x256))
    (broadcastInDim S784x256 ![] bcast_S_S784x256 (constant (F := Ideal) S_ .f32 0x40800000#32))

/-- The lines after the region as one term over the region's result: zero where the degree plane is zero, its
    reciprocal elsewhere, the plane then laid out row after row and cut to its first 200000 entries. -/
def tailVec (H : Vec Ideal S2x784x256 .f32) : Vec Ideal S200000 .f32 :=
  extractStridedSlice S200000 ![0]
    (shapeCast S200704
      (select
        (cmpf (F := Ideal) .oeq (degPlane H) (broadcastInDim S784x256 ![] bcast_S_S784x256 (constant (F := Ideal) S_ .f32 0x00000000#32)))
        (broadcastInDim S784x256 ![] bcast_S_S784x256 (constant (F := Ideal) S_ .f32 0x00000000#32))
        (Host.divf (F := Ideal) (broadcastInDim S784x256 ![] bcast_S_S784x256 (constant (F := Ideal) S_ .f32 0x3F800000#32)) (degPlane H)))
      shapeCasts_S784x256_S200704)
    slices_S200704_S200000_0

/-- The lines after the region compute `tailVec` of the region's result array: each line's result is its operation
    applied to the earlier lines' results, and the one array they read is the second window's, which the region leaves
    at `H`. -/
theorem tail_vec (c : Dev nD) (H : Vec Ideal S2x784x256 .f32)
    (hH : (dats m 0 c).arrAt 1 cfg0.N = H) :
    (Pipeline.afterTail₀ cfgs (dats m) 0 (V0 m) [hostOps1, hostOps1_1, hostOps1_2] c main_v19 : Vec Ideal S200000 .f32)
      = tailVec H := by
  have hw : Pipeline.withArrays (cfgs 0).spec c (V0 m c) (fun w => (dats m 0 c).arrAt w (cfgs 0).N) (Proc.devRef .tc main_v4) = H :=
    (Pipeline.withArrays_arr spec0 launch0.win.arr_inj c _ _ 1).trans hH
  unfold Pipeline.afterTail₀
  simp only [Gen.hostOps1, Gen.hostOps1_1, Gen.hostOps1_2, List.flatten_cons, List.flatten_nil, List.append_nil, List.cons_append, List.nil_append]
  after_results
  rw [hw]
  rfl

/-- The degree plane at cell (r, c): the leading unit axis of each slice carries no position, so the reshaped slice
    at (r, c) is the histogram at (0, r, c), respectively (1, r, c); the constant plane reads its one word everywhere. -/
theorem degPlane_apply (H : Vec Ideal S2x784x256 .f32) (r : Fin 784) (c : Fin 256) :
    degPlane H (ix2 r c)
      = FloatOps.addf (H (ix3 (0 : Fin 2) r c) + H (ix3 (1 : Fin 2) r c)) (FloatOps.ofBits (F := Ideal) .f32 0x40800000#32) := by
  have e0 : shapeCast S784x256 (extractStridedSlice S1x784x256 ![0, 0, 0] H slices_S2x784x256_S1x784x256_0_0_0)
      shapeCasts_S1x784x256_S784x256 (ix2 r c) = H (ix3 (0 : Fin 2) r c) := by
    refine (shapeCast_apply _ _ (ix2 r c) (ix3 (0 : Fin 1) r c) ?_).trans ?_
    · rw [Shape.rowMajor_val_three, Shape.rowMajor_val_two]
      show (0 * 784 + r.val) * 256 + c.val = r.val * 256 + c.val
      omega
    · refine extractStridedSlice_apply _ _ _ (ix3 (0 : Fin 1) r c) (ix3 (0 : Fin 2) r c) (fun a => ?_)
      match a with
      | ⟨0, _⟩ => rfl
      | ⟨1, _⟩ => show r.val = 0 + r.val; omega
      | ⟨2, _⟩ => show c.val = 0 + c.val; omega
  have e1 : shapeCast S784x256 (extractStridedSlice S1x784x256 ![1, 0, 0] H slices_S2x784x256_S1x784x256_1_0_0)
      shapeCasts_S1x784x256_S784x256 (ix2 r c) = H (ix3 (1 : Fin 2) r c) := by
    refine (shapeCast_apply _ _ (ix2 r c) (ix3 (0 : Fin 1) r c) ?_).trans ?_
    · rw [Shape.rowMajor_val_three, Shape.rowMajor_val_two]
      show (0 * 784 + r.val) * 256 + c.val = r.val * 256 + c.val
      omega
    · refine extractStridedSlice_apply _ _ _ (ix3 (0 : Fin 1) r c) (ix3 (1 : Fin 2) r c) (fun a => ?_)
      match a with
      | ⟨0, _⟩ => rfl
      | ⟨1, _⟩ => show r.val = 0 + r.val; omega
      | ⟨2, _⟩ => show c.val = 0 + c.val; omega
  unfold degPlane
  rw [addf_apply, addf_apply, e0, e1]
  rfl

/-- `tailVec` at node i: entry i of the flattened plane is its cell (i / 256, i % 256), and there every line acts on
    that one cell: the comparison, the quotient and the choice between them are those of `recipGuard`. -/
theorem tailVec_apply (H : Vec Ideal S2x784x256 .f32) (i : Fin 200000) :
    tailVec H (ix1 i)
      = recipGuard (H (ix3 (0 : Fin 2) (⟨i.val / 256, by omega⟩ : Fin 784) (⟨i.val % 256, Nat.mod_lt _ (by norm_num)⟩ : Fin 256))
          + H (ix3 (1 : Fin 2) (⟨i.val / 256, by omega⟩ : Fin 784) (⟨i.val % 256, Nat.mod_lt _ (by norm_num)⟩ : Fin 256))) := by
  unfold tailVec
  refine (extractStridedSlice_apply _ _ _ (ix1 i) (ix1 (⟨i.val, by omega⟩ : Fin 200704)) (fun a => ?_)).trans ?_
  · match a with
    | ⟨0, _⟩ => show i.val = 0 + i.val; omega
  refine (shapeCast_apply _ _ (ix1 (⟨i.val, by omega⟩ : Fin 200704))
    (ix2 (⟨i.val / 256, by omega⟩ : Fin 784) (⟨i.val % 256, Nat.mod_lt _ (by norm_num)⟩ : Fin 256)) ?_).trans ?_
  · rw [Shape.rowMajor_val_two, Shape.rowMajor_val_one]
    show i.val / 256 * 256 + i.val % 256 = i.val
    omega
  rw [select_apply, cmpf_apply]
  unfold Host.divf
  dsimp only
  rw [degPlane_apply]
  rfl

end HostTail

/-- The lines after the region, read at node i: the two partial histograms' cells (i / 256, i % 256) added, then the guarded reciprocal. -/
theorem tail_eq (c : Dev nD) (H : Vec Ideal S2x784x256 .f32)
    (hH : (dats m 0 c).arrAt 1 cfg0.N = H) (i : Fin 200000) :
    (Pipeline.afterTail₀ cfgs (dats m) 0 (V0 m) [hostOps1, hostOps1_1, hostOps1_2] c main_v19) (ix1 i)
      = recipGuard (H (ix3 (0 : Fin 2) (⟨i.val / 256, by omega⟩ : Fin 784) (⟨i.val % 256, Nat.mod_lt _ (by norm_num)⟩ : Fin 256))
          + H (ix3 (1 : Fin 2) (⟨i.val / 256, by omega⟩ : Fin 784) (⟨i.val % 256, Nat.mod_lt _ (by norm_num)⟩ : Fin 256))) :=
  (congrFun (HostTail.tail_vec m c H hH) (ix1 i)).trans (HostTail.tailVec_apply H i)

end Cert.KernelIdeal.Hist

end
-- ==== Proof.FinalArray.lean ====
import proofs.«406339_j80221399155530_1_alg».proof.Proof.Spec
import proofs.«406339_j80221399155530_1_alg».proof.Proof.Gen.KernelIdeal.Frame
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Hist

variable (m : (ℓ : Loc nD τ sig) → Buf (Elt Ideal) ℓ)

/-- What each half of the grid leaves in its block of the result array. -/
def finalH (e : ℕ → BitVec 32) : Vec Ideal S2x784x256 .f32 :=
  fun j => cnt e (256 * ((j 1).val : ℤ) + ((j 2).val : ℤ)) (6400000 * (j 0).val) (6400000 * ((j 0).val + 1))

/-- Where the result's block sits at grid point t: on the first axis at the point's half, t / 250; on the other two
    axes at the origin (the block spans them whole). -/
theorem blockIndex_facts : ∀ t : Fin cfg0.N, win0_1.index t (0 : Fin 3) = t.val / 250 ∧ win0_1.index t (1 : Fin 3) = 0
    ∧ win0_1.index t (2 : Fin 3) = 0 :=
  (by decide +kernel : ∀ t : Fin grid0.N, _)

/-- A point that writes the result's block back is the last point of its half (t ≡ 249 mod 250). What it writes is its
    half's block of `finalH`: cell (0, h, l) of the block is cell (t / 250, h, l) of the array, and the words counted up to
    the end of the point's block, 25600 (t + 1), are then all of the half's words, up to 6400000 (t / 250 + 1). -/
theorem flushed_eq (c : Dev nD) (e : ℕ → BitVec 32)
    (hO : ∀ (n : ℕ) (hn : n < cfg0.N) (h : Fin 784) (l : Fin 256),
      outsAt0 m c n hn (ix3 (0 : Fin 1) h l) = cnt e (256 * (h.val : ℤ) + (l.val : ℤ)) (6400000 * (n / 250)) (25600 * (n + 1)))
    (t : Fin cfg0.N) (hf : (cfg0.win 1).flush t = true) :
    (dats m 0 c).flushed 1 t = ((cfg0.win 1).blk t).view.read (Elt Ideal) (finalH e) := by
  have hN : cfg0.N = 500 := N_0
  have h249 : t.val % 250 = 249 := (flush0_1 t).mp hf
  show (cfg0.win 1).cut (grid0.coords t) ((dats m 0 c).after 1 t) = _
  rw [after0_1]
  obtain ⟨i0, i1, i2⟩ := blockIndex_facts t
  -- from here on only the two functions' values matter: name them, keeping what is known of each
  have hX := hO t.val t.isLt
  generalize outsAt0 m c t.val t.isLt = X at hX
  have hG : ∀ j : S2x784x256.Idx, finalH e j
      = cnt e (256 * ((j 1).val : ℤ) + ((j 2).val : ℤ)) (6400000 * (j 0).val) (6400000 * ((j 0).val + 1)) := fun _ => rfl
  generalize finalH e = G at hG
  have cell : ∀ y : S1x784x256.Idx,
      (cfg0.win 1).cut (grid0.coords t) X y = View.read (Elt Ideal) ((cfg0.win 1).blk t).view G y := by
    intro y
    obtain ⟨a, h, l, rfl⟩ : ∃ (a : Fin 1) (h : Fin 784) (l : Fin 256), y = ix3 a h l := ⟨y 0, y 1, y 2, eq_ix3 y⟩
    obtain rfl : a = 0 := Subsingleton.elim _ _
    rw [View.read_apply]
    -- the block is moved whole, so the part written back at a cell is the staging buffer's value there
    refine Eq.trans (b := X (ix3 (0 : Fin 1) h l)) rfl ?_
    rw [hX]
    refine Eq.trans ?_ (cast_eq rfl _).symm
    rw [hG]
    -- a block's cell sits in the array, on each axis, at block index × block size + 1 × its own coordinate
    have e0 : ((((cfg0.win 1).blk t).view.emb (ix3 (0 : Fin 1) h l)) 0).val = t.val / 250 := by
      show win0_1.index t (0 : Fin 3) * 1 + 1 * 0 = _
      omega
    have e1 : ((((cfg0.win 1).blk t).view.emb (ix3 (0 : Fin 1) h l)) 1).val = h.val := by
      show win0_1.index t (1 : Fin 3) * 784 + 1 * h.val = _
      omega
    have e2 : ((((cfg0.win 1).blk t).view.emb (ix3 (0 : Fin 1) h l)) 2).val = l.val := by
      show win0_1.index t (2 : Fin 3) * 256 + 1 * l.val = _
      omega
    rw [e0, e1, e2]
    -- t = 250 q + 249, so 25600 (t + 1) = 25600 · 250 (q + 1) = 6400000 (q + 1)
    have hend : 25600 * (t.val + 1) = 6400000 * (t.val / 250 + 1) := by omega
    rw [hend]
  exact funext cell

/-- Every cell (j0, j1, j2) of the [2, 784, 256] array lies in a block that is written back: the block of the last point
    of half j0, t = 250 j0 + 249, which spans the last two axes whole. -/
theorem covered (i : S2x784x256.Idx) :
    ∃ t : Fin cfg0.N, (cfg0.win 1).flush t = true ∧ i ∈ ((cfg0.win 1).blk t).view.set := by
  have hN : cfg0.N = 500 := N_0
  have h0 : (i 0).val < 2 := (i 0).isLt
  have h1 : (i 1).val < 784 := (i 1).isLt
  have h2 : (i 2).val < 256 := (i 2).isLt
  obtain ⟨t, ht⟩ : ∃ t : Fin cfg0.N, t.val = 250 * (i 0).val + 249 :=
    ⟨⟨250 * (i 0).val + 249, by rw [hN]; omega⟩, rfl⟩
  obtain ⟨j0, j1, j2⟩ := blockIndex_facts t
  refine ⟨t, (flush0_1 t).mpr (by omega), ?_⟩
  show i ∈ ((View.whole main_v4).slice (win0_1.rect t)).set
  rw [View.set_slice_whole, Rect.mem_set_unit]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 784 ≤ (i 1).val ∧ (i 1).val < win0_1.index t (1 : Fin 3) * 784 + 784
    omega
  | ⟨2, _⟩ =>
    show win0_1.index t (2 : Fin 3) * 256 ≤ (i 2).val ∧ (i 2).val < win0_1.index t (2 : Fin 3) * 256 + 256
    omega

/-- If after every point n the output's staging buffer holds, at cell (h, l), the hits of node 256 h + l among the words
    from the start of the point's half up to the end of the point's block, then the result array ends holding each half's hits. -/
theorem final_eq (c : Dev nD) (e : ℕ → BitVec 32)
    (hO : ∀ (n : ℕ) (hn : n < cfg0.N) (h : Fin 784) (l : Fin 256),
      outsAt0 m c n hn (ix3 (0 : Fin 1) h l) = cnt e (256 * (h.val : ℤ) + (l.val : ℤ)) (6400000 * (n / 250)) (25600 * (n + 1))) :
    (dats m 0 c).arrAt 1 cfg0.N = finalH e :=
  (dats m 0 c).arrAt_eq_of_cover 1 (finalH e) (flushed_eq m c e hO) covered

end Cert.KernelIdeal.Hist

end
-- ==== Proof.LibWholeReload.lean ====
import Idealize.ShloMosaic.Lib.Pipeline.Value

/-! # A load of a whole buffer after a store of the whole buffer

A buffer is stored whole (through the unit rectangle at zero offsets of the buffer's own sizes) and later loaded whole.
Whatever was stored before the last whole store, the load reads that store's payload: the earlier pieces lie under
it. `View.readCov_unit_zero` is the case of no earlier piece; this is the case of any list of earlier pieces, which
is what a chain of read-modify-write rounds on one scratch buffer produces. -/

namespace Idealize.ShloMosaic.View

variable {Val : EltTy → Type} {S : Shape} {e : EltTy}

/-- A whole load after a whole store reads the store's payload, whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- The zero offsets of a rank-2 and of a rank-3 buffer, as the printed programs spell them. -/
theorem zeros2 : (![0, 0] : Fin 2 → Nat) = fun _ => 0 := by
  funext a; fin_cases a <;> rfl
theorem zeros3 : (![0, 0, 0] : Fin 3 → Nat) = fun _ => 0 := by
  funext a; fin_cases a <;> rfl

end Idealize.ShloMosaic.View
-- ==== Proof.LoopValue.lean ====
import proofs.«406339_j80221399155530_1_alg».proof.Proof.Gen.KernelIdeal.Frame
import proofs.«406339_j80221399155530_1_alg».proof.Proof.LibWholeReload
import Idealize.ShloMosaic.Lib.Pipeline.Value
import Idealize.ShloMosaic.Lib.Tactic
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen

variable {F : FTy → Type} [FloatOps F]

/-- Rows 8k to 8k + 7 of a block of 200 rows: what trip k of the loop loads. -/
def rows8 (x : Vec F S200x128 .i32) (k : Fin k0_t1_loop.trips) : Vec F S8x128 .i32 :=
  View.ld x (Rect.unit (s := S200x128) (k0_off1 k) S8x128.size (k0_off1_inb k))

/-- The accumulator after k trips over a block x, started at g: each trip stores the trip's payload of the rows it loads
    and of what the accumulator held. -/
def accum (x : Vec F S200x128 .i32) (g : Vec F S1x784x256 .f32) : ℕ → Vec F S1x784x256 .f32
  | 0 => g
  | k + 1 => if h : k < k0_t1_loop.trips then k0_pay2 (rows8 x ⟨k, h⟩) (accum x g k) else accum x g k

theorem accum_succ (x : Vec F S200x128 .i32) (g : Vec F S1x784x256 .f32) (k : Fin k0_t1_loop.trips) :
    accum x g (k.val + 1) = k0_pay2 (rows8 x k) (accum x g k.val) := by
  rw [accum]; exact dif_pos k.isLt

/-- One trip's pieces, opened once: a store of the whole accumulator block, its payload that of the trip's two loads. -/
theorem tripL_eq (𝒱 : Variants) (c : Dev nD) (bd : Option 𝒱.V) (i : grid0.Coords) (arg2 : Memref sig .tc .vmem S200x128 .i32) (harg2 : arg2.IsWhole)
    (arg3 : Memref sig .tc .vmem S1x784x256 .f32) (harg3 : arg3.IsWhole) (X : BufTy.Contents (Elt F) arg2.view.ty)
    (k : Fin k0_t1_loop.trips) (f : BufTy.Contents (Elt F) arg3.view.ty) :
    tripL_k0_t1 (F := F) 𝒱 c bd i arg2 harg2 arg3 harg3 X k f
      = [⟨Rect.unit (s := S1x784x256) ![0, 0, 0] S1x784x256.size inb_S1x784x256_S1x784x256_0_0_0,
          k0_pay2 (View.readAt (Elt F) arg2.view (Rect.unit (s := S200x128) (k0_off1 k) S8x128.size (k0_off1_inb k)).toLoadRect X)
            (View.readAt (Elt F) arg3.view (Rect.unit (s := S1x784x256) ![0, 0, 0] S1x784x256.size inb_S1x784x256_S1x784x256_0_0_0).toLoadRect f)⟩] := by
  unfold tripL_k0_t1 trip_k0_t1
  rfl

/-- What the accumulator's buffer reads after the pieces of the first k trips are written over contents G: the
    accumulation started at what G reads. -/
theorem read_pb (𝒱 : Variants) (c : Dev nD) (bd : Option 𝒱.V) (i : grid0.Coords) (arg2 : Memref sig .tc .vmem S200x128 .i32) (harg2 : arg2.IsWhole)
    (arg3 : Memref sig .tc .vmem S1x784x256 .f32) (harg3 : arg3.IsWhole) (x0 : Vec F S200x128 .i32)
    (G : BufTy.Contents (Elt F) arg3.view.ty) :
    ∀ k : ℕ, k ≤ k0_t1_loop.trips →
      arg3.view.read (Elt F) (arg3.view.writes (Elt F) G (pb_k0_t1 (F := F) 𝒱 c bd i arg2 harg2 arg3 harg3 (harg2.unread x0) G k))
        = accum x0 (arg3.view.read (Elt F) G) k
  | 0, _ => by rw [pb_k0_t1]; rfl
  | k + 1, hk => by
    have ih := read_pb 𝒱 c bd i arg2 harg2 arg3 harg3 x0 G k (Nat.le_of_succ_le hk)
    have e := pb_k0_t1_succ (F := F) 𝒱 c bd i arg2 harg2 arg3 harg3 (harg2.unread x0) G ⟨k, hk⟩
    dsimp only at e
    rw [e, tripL_eq, List.singleton_append]
    rw [View.read_writes_eq_canon _ _ _ (fun y => ⟨_, List.mem_cons_self, View.mem_set_unit_zero View.zeros3 inb_S1x784x256_S1x784x256_0_0_0 y⟩),
      View.canon_cons_unit_zero View.zeros3]
    rw [accum_succ x0 _ ⟨k, hk⟩]
    simp only [View.readAt_eq_ld, harg2.read_unread, View.ld_unit_zero (S := S1x784x256) View.zeros3, ih]
    rfl

/-- A point that does not reset: the block ends at the accumulation, over the point's input block, started at what the
    point before left. -/
theorem out_B (c : Dev nD) (i : grid0.Coords) (arg2 : Memref sig .tc .vmem S200x128 .i32) (harg2 : arg2.IsWhole)
    (arg3 : Memref sig .tc .vmem S1x784x256 .f32) (harg3 : arg3.IsWhole) (hc0 : ¬cond0_0 i)
    (x0 : Vec F S200x128 .i32) (xo1 : Vec F S1x784x256 .f32) :
    out0_B_1 (F := F) c i arg2 harg2 arg3 harg3 hc0 x0 xo1 = accum x0 xo1 k0_t1_loop.trips := by
  unfold out0_B_1
  rw [View.read_writes_of_cover _ _ arg3.view (harg3.unread xo1) _ (cover0_B_1 c i arg2 harg2 arg3 harg3 hc0 x0 xo1)]
  unfold kernelRun0_B
  dsimp only
  have h := read_pb (F := F) Variants.none c none i arg2 harg2 arg3 harg3 x0 (harg3.unread xo1) k0_t1_loop.trips le_rfl
  rw [harg3.read_unread] at h
  exact h

/-- A point that resets: the block ends at the accumulation started at the zero block the reset stores. -/
theorem out_A (c : Dev nD) (i : grid0.Coords) (arg2 : Memref sig .tc .vmem S200x128 .i32) (harg2 : arg2.IsWhole)
    (arg3 : Memref sig .tc .vmem S1x784x256 .f32) (harg3 : arg3.IsWhole) (hc0 : cond0_0 i)
    (x0 : Vec F S200x128 .i32) :
    out0_A_1 (F := F) c i arg2 harg2 arg3 harg3 hc0 x0 = accum x0 (k0_pay1 (F := F)) k0_t1_loop.trips := by
  unfold out0_A_1
  rw [View.read_writes_of_cover _ _ arg3.view arg3.view.junk _ (cover0_A_1 c i arg2 harg2 arg3 harg3 hc0 x0)]
  unfold kernelRun0_A
  dsimp only
  sl_unfold_words
  rw [View.writes_append]
  have h := read_pb (F := F) Variants.none c none i arg2 harg2 arg3 harg3 x0
    (arg3.view.writes (Elt F) arg3.view.junk
      [⟨Rect.unit (s := S1x784x256) ![0, 0, 0] S1x784x256.size inb_S1x784x256_S1x784x256_0_0_0, k0_pay1 (F := F)⟩])
    k0_t1_loop.trips le_rfl
  rw [View.read_writes_junk_eq_canon, View.canon_unit_zero View.zeros3] at h
  exact h

end Cert.KernelIdeal.Hist

end
-- ==== Proof.GridValue.lean ====
import proofs.«406339_j80221399155530_1_alg».proof.Proof.Spec
import proofs.«406339_j80221399155530_1_alg».proof.Proof.CountSums
import proofs.«406339_j80221399155530_1_alg».proof.Proof.LoopValue
import proofs.«406339_j80221399155530_1_alg».proof.Proof.Gen.KernelIdeal.Frame
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Hist

variable (m : (ℓ : Loc nD τ sig) → Buf (Elt Ideal) ℓ)

/-- The loop has 25 trips. -/
theorem trips_eq : k0_t1_loop.trips = 25 := by decide

/-- The array of words the region reads, at its literal type. -/
abbrev edges (c : Dev nD) : Vec Ideal S100000x128 .i32 := V m c main_v3

/-- The block of 200 rows the region hands point t, at its literal type. -/
abbrev eblk (c : Dev nD) (t : Fin cfg0.N) : Vec Ideal S200x128 .i32 := iblk m c 0 t

/-- The block index of the input window: point t reads block t. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Point t's block at (y, q) is the array at row 200 t + y. -/
theorem eblk_apply (c : Dev nD) (t : Fin cfg0.N) (y : Fin 200) (q : Fin 128) (hr : 200 * t.val + y.val < 100000) :
    eblk m c t (ix2 y q) = edges m c (ix2 (⟨200 * t.val + y.val, hr⟩ : Fin 100000) q) := by
  unfold eblk edges iblk
  rw [View.read_apply]
  show V m c main_v3 _ = V m c main_v3 _
  congr 1
  funext a
  apply Fin.ext
  match a with
  | ⟨0, _⟩ => show win0_0.index t 0 * 200 + 1 * y.val = 200 * t.val + y.val; rw [(in_index t).1]; omega
  | ⟨1, _⟩ => show win0_0.index t 1 * 128 + 1 * q.val = q.val; rw [(in_index t).2]; omega

/-- Trip k's rows of a block: row r of them is the block's row 8 k + r. -/
theorem rows8_apply (x : Vec Ideal S200x128 .i32) (k : Fin k0_t1_loop.trips) (r : Fin 8) (q : Fin 128) (hr : 8 * k.val + r.val < 200) :
    rows8 x k (ix2 r q) = x (ix2 (⟨8 * k.val + r.val, hr⟩ : Fin 200) q) := by
  unfold rows8 View.ld
  congr 1
  funext a
  apply Fin.ext
  match a with
  | ⟨0, _⟩ => show k0_off1 k 0 + 1 * r.val = 8 * k.val + r.val; rw [k0_off1_eq k]; show 8 * k.val + 1 * r.val = _; omega
  | ⟨1, _⟩ => show k0_off1 k 1 + 1 * q.val = q.val; rw [k0_off1_eq k]; show 0 + 1 * q.val = _; omega

section
variable (c : Dev nD) (e : ℕ → BitVec 32)
  (hpay : ∀ (x : Vec Ideal S8x128 .i32) (g : Vec Ideal S1x784x256 .f32) (h : Fin 784) (l : Fin 256),
    k0_pay2 (F := Ideal) x g (ix3 (0 : Fin 1) h l)
      = g (ix3 (0 : Fin 1) h l) + ∑ r : Fin 8, ∑ q : Fin 128, hitW (x (ix2 r q)) (256 * (h.val : ℤ) + (l.val : ℤ)))
  (hpay1 : ∀ j : S1x784x256.Idx, k0_pay1 (F := Ideal) j = 0)
  (hedge : ∀ (r : Fin 100000) (q : Fin 128), edges m c (ix2 r q) = e (128 * r.val + q.val))

include hpay hedge in
/-- After k trips over point t's block the cell (h, l) has gained the hits of node 256 h + l among the words of the
    block's first 8 k rows. -/
theorem accum_eblk (t : Fin cfg0.N) (g : Vec Ideal S1x784x256 .f32) (h : Fin 784) (l : Fin 256) :
    ∀ k : ℕ, k ≤ k0_t1_loop.trips →
      accum (eblk m c t) g k (ix3 (0 : Fin 1) h l)
        = g (ix3 (0 : Fin 1) h l) + cnt e (256 * (h.val : ℤ) + (l.val : ℤ)) (25600 * t.val) (25600 * t.val + 1024 * k)
  | 0, _ => by rw [accum, Nat.mul_zero, Nat.add_zero, cnt_self, add_zero]
  | k + 1, hk => by
    have hN : t.val < 500 := lt_of_lt_of_eq t.isLt (show cfg0.N = 500 from N_0)
    have hk25 : k < 25 := by have := trips_eq; omega
    have ih := accum_eblk t g h l k (Nat.le_of_succ_le hk)
    rw [accum_succ (eblk m c t) g ⟨k, hk⟩, hpay, ih, add_assoc]
    congr 1
    have hrows : ∑ r : Fin 8, ∑ q : Fin 128, hitW (rows8 (eblk m c t) ⟨k, hk⟩ (ix2 r q)) (256 * (h.val : ℤ) + (l.val : ℤ))
        = ∑ r : Fin 8, ∑ q : Fin 128, hitW (e ((25600 * t.val + 1024 * k) + (r.val * 128 + q.val))) (256 * (h.val : ℤ) + (l.val : ℤ)) := by
      refine Finset.sum_congr rfl fun r _ => Finset.sum_congr rfl fun q _ => ?_
      have hr8 : r.val < 8 := r.isLt
      rw [rows8_apply (eblk m c t) ⟨k, hk⟩ r q (by show 8 * k + r.val < 200; omega),
        eblk_apply m c t ⟨8 * k + r.val, by omega⟩ q (by show 200 * t.val + (8 * k + r.val) < 100000; omega), hedge]
      congr 2
      show 128 * (200 * t.val + (8 * k + r.val)) + q.val = _
      omega
    rw [hrows, cnt_rows, cnt_add e _ (by omega) (by omega)]
    congr 1

include hpay hpay1 hedge in
/-- After point n the output's staging buffer holds, at cell (h, l), the hits of node 256 h + l among the words from the
    start of the point's half of the stream up to the end of the point's block. -/
theorem outsAt_eq (h : Fin 784) (l : Fin 256) : ∀ (n : ℕ) (hn : n < cfg0.N),
    outsAt0 m c n hn (ix3 (0 : Fin 1) h l)
      = cnt e (256 * (h.val : ℤ) + (l.val : ℤ)) (6400000 * (n / 250)) (25600 * (n + 1))
  | 0, hn => by
    rw [outsAt0_A m c ⟨0, hn⟩ rfl, out_A]
    have := accum_eblk m c e hpay hedge ⟨0, hn⟩ (k0_pay1 (F := Ideal)) h l k0_t1_loop.trips le_rfl
    rw [trips_eq] at this
    rw [trips_eq]
    refine this.trans ?_
    rw [hpay1, zero_add]
    congr 1
  | n + 1, hn => by
    have hN : n + 1 < 500 := lt_of_lt_of_eq hn (show cfg0.N = 500 from N_0)
    by_cases h0 : (n + 1) % 250 = 0
    · rw [outsAt0_A m c ⟨n + 1, hn⟩ h0, out_A]
      have := accum_eblk m c e hpay hedge ⟨n + 1, hn⟩ (k0_pay1 (F := Ideal)) h l k0_t1_loop.trips le_rfl
      rw [trips_eq] at this
      rw [trips_eq]
      refine this.trans ?_
      rw [hpay1, zero_add]
      show cnt e _ (25600 * (n + 1)) (25600 * (n + 1) + 1024 * 25) = _
      have e2 : 25600 * (n + 1) + 1024 * 25 = 25600 * (n + 1 + 1) := by omega
      have e1 : 25600 * (n + 1) = 6400000 * ((n + 1) / 250) := by omega
      rw [e2, e1]
    · rw [outsAt0_B m c ⟨n + 1, hn⟩ h0, out_B]
      have := accum_eblk m c e hpay hedge ⟨n + 1, hn⟩ (outsAt0 m c n (Nat.lt_of_succ_lt hn)) h l k0_t1_loop.trips le_rfl
      rw [trips_eq] at this
      rw [trips_eq]
      refine this.trans ?_
      rw [outsAt_eq h l n (Nat.lt_of_succ_lt hn)]
      have e1 : 6400000 * (n / 250) = 6400000 * ((n + 1) / 250) := by omega
      have e2 : 25600 * (n + 1) = 25600 * (⟨n + 1, hn⟩ : Fin cfg0.N).val := rfl
      have e3 : 25600 * (⟨n + 1, hn⟩ : Fin cfg0.N).val + 1024 * 25 = 25600 * (n + 1 + 1) := by show 25600 * (n + 1) + 1024 * 25 = _; omega
      rw [e1, e2, cnt_add e _ (by show 6400000 * ((n + 1) / 250) ≤ 25600 * (n + 1); omega) (by omega), e3]

end

end Cert.KernelIdeal.Hist

end
-- ==== Proof.KernelRun.lean ====
import proofs.«406339_j80221399155530_1_alg».proof.Proof.Spec
import proofs.«406339_j80221399155530_1_alg».proof.Proof.CountSums
import proofs.«406339_j80221399155530_1_alg».proof.Proof.TripValue
import proofs.«406339_j80221399155530_1_alg».proof.Proof.HostPrefix
import proofs.«406339_j80221399155530_1_alg».proof.Proof.HostTail
import proofs.«406339_j80221399155530_1_alg».proof.Proof.FinalArray
import proofs.«406339_j80221399155530_1_alg».proof.Proof.GridValue
import proofs.«406339_j80221399155530_1_alg».proof.Proof.Gen.KernelIdeal.Frame
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Hist

variable (m : (ℓ : Loc nD τ sig) → Buf (Elt Ideal) ℓ) (ρ : Dev nD → PrngReg)

/-- The stream of words the region reads on core c: the second table flattened, then the first. -/
abbrev stream (c : Dev nD) : ℕ → BitVec 32 :=
  catWord (m ((c : Thread nD τ).loc main_arg2)) (m ((c : Thread nD τ).loc main_arg1))

/-- The region's result array: block 0 counts the first half of the stream, block 1 the second half. -/
theorem final (c : Dev nD) : (dats m 0 c).arrAt 1 cfg0.N = finalH (stream m c) :=
  final_eq m c (stream m c) fun n hn h l =>
    outsAt_eq m c (stream m c) pay2_apply pay1_apply (edges_eq m c) h l n hn

/-- The kernel program's result is the specification's function of the two tables. -/
theorem result_eq (c : Dev nD) :
    Pipeline.afterTail₀ cfgs (dats m) 0 (V0 m) [hostOps1, hostOps1_1, hostOps1_2] c main_v19
      = spec (m ((c : Thread nD τ).loc main_arg1)) (m ((c : Thread nD τ).loc main_arg2)) := by
  funext i
  obtain ⟨a, rfl⟩ : ∃ a : Fin 200000, i = ix1 a := ⟨i 0, eq_ix1 i⟩
  rw [tail_eq m c (finalH (stream m c)) (final m c) a]
  have ha : a.val < 200000 := a.isLt
  have hv : (256 * ((a.val / 256 : ℕ) : ℤ) + ((a.val % 256 : ℕ) : ℤ)) = ((a.val : ℕ) : ℤ) := by omega
  show recipGuard (cnt (stream m c) (256 * ((a.val / 256 : ℕ) : ℤ) + ((a.val % 256 : ℕ) : ℤ)) (6400000 * 0) (6400000 * (0 + 1))
      + cnt (stream m c) (256 * ((a.val / 256 : ℕ) : ℤ) + ((a.val % 256 : ℕ) : ℤ)) (6400000 * 1) (6400000 * (1 + 1)))
    = recipGuard (deg1 _ ((a.val : ℕ) : ℤ) + deg1 _ ((a.val : ℕ) : ℤ))
  rw [hv]
  exact congrArg recipGuard (congrArg₂ (· + ·) (cnt_first_half _ _ _) (cnt_second_half _ _ _))

/-- The kernel program's run: its result array ends at the specification's function, its arguments unchanged. -/
theorem run : θ_run (defs (F := Ideal)) (onTc (τ := τ) (main (F := Ideal))) ⟨m, fun _ => 0, ρ⟩ (fun r => ∀ c : Dev nD,
      r.2.mem ((c.tc : Thread nD τ).loc main_v19)
          = spec (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hist

end
-- ==== Proof.lean ====
/-
  The degree-normalisation kernel against its reference, over the extended reals.

  Both programs take two tables of node numbers, a1 and a2, each of shape [4, 1600000], and return, for each of the
  200000 nodes i, the reciprocal of  (entries of a2 naming i) + (entries of a1 naming i) + 4,  with a zero where that
  sum is zero; an entry naming no node is counted nowhere (Proof/Spec.lean states this function, `Cert.Hist.spec`).

  The reference counts with two accumulating scatters of ones (Proof/RefValue.lean). The kernel flattens a2 then a1 into
  one stream of 12800000 words, laid out as 100000 rows of 128 lanes, and a grid of 2 x 250 points walks it 200 rows at
  a time, 8 rows per trip of an inner loop: a trip splits each word w into w >> 8 and w & 255, compares each part with
  an iota, multiplies the two 0/1 arrays along the lanes and adds the 8 row results into the cell (h, l) of a
  784 x 256 block, so that the cell gains the number of the trip's words equal to 256 h + l (Proof/TripValue.lean).
  Summed over the trips of a point (Proof/LoopValue.lean), the points of a half of the grid (Proof/GridValue.lean) and
  written back once per half (Proof/FinalArray.lean), block 0 of the result array counts the first half of the stream,
  which is a2, and block 1 the second half, which is a1 (Proof/CountSums.lean). The lines after the region add the two
  blocks, add four, take the guarded reciprocal and keep the first 200000 cells in row-major order, cell (i / 256, i % 256)
  for node i (Proof/HostTail.lean). So both results are the specification's function (Proof/KernelRun.lean), and sums of
  finitely many zeros and ones over the extended reals re-associate freely: no finiteness of the float input is used.
-/
import proofs.«406339_j80221399155530_1_alg».proof.Defs
import proofs.«406339_j80221399155530_1_alg».proof.Proof.Gen.Kernel
import proofs.«406339_j80221399155530_1_alg».proof.Proof.Gen.Kernel.Frame
import proofs.«406339_j80221399155530_1_alg».proof.Proof.Gen.KernelIdeal
import proofs.«406339_j80221399155530_1_alg».proof.Proof.Gen.KernelIdeal.Frame
import proofs.«406339_j80221399155530_1_alg».proof.Proof.Gen.ReferenceIdeal
import proofs.«406339_j80221399155530_1_alg».proof.Proof.Gen.Pre_finite_inputs
import proofs.«406339_j80221399155530_1_alg».proof.Proof.RefRunPatched
import proofs.«406339_j80221399155530_1_alg».proof.Proof.RefValue
import proofs.«406339_j80221399155530_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.PatchedValue.run (F := Ideal) m ρ)

/-- The two idealized programs, from memories that agree on the tables, both end at the specification's function of
    the tables. -/
theorem algebraic : Cert.algebraic_KernelIdeal_ReferenceIdeal := by
  intro m ρ m' ρ' _ hagree
  refine ⟨fun c => Cert.Hist.spec (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hist.run m ρ, ?_⟩
  refine (θ_run Cert.ReferenceIdeal.defs _ _).mono (fun _ h c => ⟨(h c).1.trans ?_, (h c).2⟩)
    (Cert.ReferenceIdeal.Hist.run m' ρ')
  rw [(hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
